-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S1x1024 : Shape := ⟨2, ![1, 1024]⟩
abbrev S1024 : Shape := ⟨1, ![1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S32x1024x1024 .f32) (main_arg1 : FVec F S1x1024 .f32) (main_arg2 : FVec F S1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S32x1024x1024 : Shape := ⟨3, ![32, 1024, 1024]⟩
abbrev S1x1024 : Shape := ⟨2, ![1, 1024]⟩
abbrev S1024 : Shape := ⟨1, ![1024]⟩
abbrev S1025x1024 : Shape := ⟨2, ![1025, 1024]⟩
abbrev S1049600 : Shape := ⟨1, ![1049600]⟩
abbrev S1024x1025 : Shape := ⟨2, ![1024, 1025]⟩
abbrev S1024x1024 : Shape := ⟨2, ![1024, 1024]⟩
abbrev S1023x1024 : Shape := ⟨2, ![1023, 1024]⟩
abbrev S1024x1 : Shape := ⟨2, ![1024, 1]⟩
abbrev S_ : Shape := ⟨0, ![]⟩
abbrev S32768x1024 : Shape := ⟨2, ![32768, 1024]⟩

abbrev nBuf : Space → Nat
  | .hbm => 28
  | .vmem => 6
  | .smem => 0
  | _ => 0

abbrev bufTy : (tb : Table) → Fin (tcTables nBuf tb) → BufTy
  | .hbm, ⟨0, _⟩ => ⟨S32x1024x1024, .f32⟩
  | .hbm, ⟨1, _⟩ => ⟨S1x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1025x1024, .f32⟩
  | .hbm, ⟨6, _⟩ => ⟨S1049600, .f32⟩
  | .hbm, ⟨7, _⟩ => ⟨S1024x1025, .f32⟩
  | .hbm, ⟨8, _⟩ => ⟨S1024x1024, .f32⟩
  | .hbm, ⟨9, _⟩ => ⟨S1x1024, .f32⟩
  | .hbm, ⟨10, _⟩ => ⟨S1023x1024, .f32⟩
  | .hbm, ⟨11, _⟩ => ⟨S1023x1024, .f32⟩
  | .hbm, ⟨12, _⟩ => ⟨S1024x1024, .f32⟩
  | .hbm, ⟨13, _⟩ => ⟨S1024, .i32⟩
  | .hbm, ⟨14, _⟩ => ⟨S1024x1, .i32⟩
  | .hbm, ⟨15, _⟩ => ⟨S1024, .i32⟩
  | .hbm, ⟨16, _⟩ => ⟨S1x1024, .i32⟩
  | .hbm, ⟨17, _⟩ => ⟨S1024x1024, .i32⟩
  | .hbm, ⟨18, _⟩ => ⟨S1024x1024, .i32⟩
  | .hbm, ⟨19, _⟩ => ⟨S1024x1024, .i1⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S1024x1024, .bf16⟩
  | .hbm, ⟨24, _⟩ => ⟨S1x1024, .f32⟩
  | .hbm, ⟨25, _⟩ => ⟨S32768x1024, .f32⟩
  | .hbm, ⟨26, _⟩ => ⟨S32768x1024, .f32⟩
  | .hbm, ⟨27, _⟩ => ⟨S32x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_call0_v15 : Ref sig .tc := ⟨.hbm, 18, rfl⟩
abbrev main_call0_v16 : Ref sig .tc := ⟨.hbm, 19, rfl⟩
abbrev main_call0_cst : Ref sig .tc := ⟨.hbm, 20, rfl⟩
abbrev main_call0_call1_v0 : Ref sig .tc := ⟨.hbm, 21, rfl⟩
abbrev main_call0_v17 : Ref sig .tc := ⟨.hbm, 22, rfl⟩
abbrev main_call0_v18 : Ref sig .tc := ⟨.hbm, 23, rfl⟩
abbrev main_call0_v19 : Ref sig .tc := ⟨.hbm, 24, rfl⟩
abbrev main_call0_v20 : Ref sig .tc := ⟨.hbm, 25, rfl⟩
abbrev main_call0_v21 : Ref sig .tc := ⟨.hbm, 26, rfl⟩
abbrev main_v0 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x1024_S1024 : S1x1024.ShapeCasts S1024
  shapeCasts_S1024_S1x1024 : S1024.ShapeCasts S1x1024
  bcast_S1x1024_S1025x1024_0_1 : S1x1024.BroadcastsInDim S1025x1024 (![0, 1] : Fin 2 → Fin S1025x1024.rank)
  shapeCasts_S1025x1024_S1049600 : S1025x1024.ShapeCasts S1049600
  shapeCasts_S1049600_S1024x1025 : S1049600.ShapeCasts S1024x1025
  slices_S1024x1025_S1024x1024_0_0 : S1024x1025.Slices ![0, 0] S1024x1024
  slices_S1024x1024_S1x1024_0_0 : S1024x1024.Slices ![0, 0] S1x1024
  slices_S1024x1024_S1023x1024_1_0 : S1024x1024.Slices ![1, 0] S1023x1024
  concatenates_S1x1024_S1023x1024_S1024x1024_d0 : Shape.Concatenates [S1x1024, S1023x1024] S1024x1024 0
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  bitsLt_bf16_f32 : FTy.bits .bf16 < FTy.bits .f32
  shapeCasts_S32x1024x1024_S32768x1024 : S32x1024x1024.ShapeCasts S32768x1024
  shapeCasts_S32768x1024_S32x1024x1024 : S32768x1024.ShapeCasts S32x1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .f32 = 32 ∨ (Rect.block (s := S32768x1024) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_call0_v20) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v18) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v19) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v21) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S1x1024 : Shape := ⟨2, ![1, 1024]⟩
abbrev S1024 : Shape := ⟨1, ![1024]⟩
abbrev S1024x1 : Shape := ⟨2, ![1024, 1]⟩
abbrev S1024x1024 : Shape := ⟨2, ![1024, 1024]⟩
abbrev S_ : Shape := ⟨0, ![]⟩
abbrev S1024x1024x1 : Shape := ⟨3, ![1024, 1024, 1]⟩
abbrev S32768x1024 : Shape := ⟨2, ![32768, 1024]⟩

abbrev nBuf : Space → Nat
  | .hbm => 54
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S1x1024, .f32⟩
  | .hbm, ⟨2, _⟩ => ⟨S1024, .f32⟩
  | .hbm, ⟨3, _⟩ => ⟨S1024, .f32⟩
  | .hbm, ⟨4, _⟩ => ⟨S1024, .i32⟩
  | .hbm, ⟨5, _⟩ => ⟨S1024x1, .i32⟩
  | .hbm, ⟨6, _⟩ => ⟨S1024, .i32⟩
  | .hbm, ⟨7, _⟩ => ⟨S1x1024, .i32⟩
  | .hbm, ⟨8, _⟩ => ⟨S1024x1024, .i32⟩
  | .hbm, ⟨9, _⟩ => ⟨S1024x1024, .i32⟩
  | .hbm, ⟨10, _⟩ => ⟨S1024x1024, .i1⟩
  | .hbm, ⟨11, _⟩ => ⟨S1024x1024, .i32⟩
  | .hbm, ⟨12, _⟩ => ⟨S1024x1024, .i32⟩
  | .hbm, ⟨13, _⟩ => ⟨S1024x1024, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S1024x1024, .i32⟩
  | .hbm, ⟨21, _⟩ => ⟨S1024x1024, .i32⟩
  | .hbm, ⟨22, _⟩ => ⟨S_, .i32⟩
  | .hbm, ⟨23, _⟩ => ⟨S1024x1024, .i32⟩
  | .hbm, ⟨24, _⟩ => ⟨S1024x1024, .i1⟩
  | .hbm, ⟨25, _⟩ => ⟨S_, .i32⟩
  | .hbm, ⟨26, _⟩ => ⟨S1024x1024, .i32⟩
  | .hbm, ⟨27, _⟩ => ⟨S1024x1024, .i1⟩
  | .hbm, ⟨28, _⟩ => ⟨S_, .i32⟩
  | .hbm, ⟨29, _⟩ => ⟨S_, .i1⟩
  | .hbm, ⟨30, _⟩ => ⟨S1024x1024, .i1⟩
  | .hbm, ⟨31, _⟩ => ⟨S1024x1024, .i1⟩
  | .hbm, ⟨32, _⟩ => ⟨S1024x1024, .i1⟩
  | .hbm, ⟨33, _⟩ => ⟨S1024x1024, .i32⟩
  | .hbm, ⟨34, _⟩ => ⟨S1024x1024, .i32⟩
  | .hbm, ⟨35, _⟩ => ⟨S1024x1024, .i32⟩
  | .hbm, ⟨36, _⟩ => ⟨S_, .i32⟩
  | .hbm, ⟨37, _⟩ => ⟨S1024x1024, .i32⟩
  | .hbm, ⟨38, _⟩ => ⟨S1024x1024, .i1⟩
  | .hbm, ⟨39, _⟩ => ⟨S_, .i32⟩
  | .hbm, ⟨40, _⟩ => ⟨S1024x1024, .i32⟩
  | .hbm, ⟨41, _⟩ => ⟨S1024x1024, .i32⟩
  | .hbm, ⟨42, _⟩ => ⟨S1024x1024, .i32⟩
  | .hbm, ⟨43, _⟩ => ⟨S1024x1024x1, .i32⟩
  | .hbm, ⟨44, _⟩ => ⟨S1024x1024, .f32⟩
  | .hbm, ⟨45, _⟩ => ⟨S_, .f32⟩
  | .hbm, ⟨46, _⟩ => ⟨S1024x1024, .f32⟩
  | .hbm, ⟨47, _⟩ => ⟨S1024x1024, .f32⟩
  | .hbm, ⟨48, _⟩ => ⟨S32768x1024, .f32⟩
  | .hbm, ⟨49, _⟩ => ⟨S32768x1024, .f32⟩
  | .hbm, ⟨50, _⟩ => ⟨S1x1024, .f32⟩
  | .hbm, ⟨51, _⟩ => ⟨S32768x1024, .f32⟩
  | .hbm, ⟨52, _⟩ => ⟨S32768x1024, .f32⟩
  | .hbm, ⟨53, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v11 : Ref sig .tc := ⟨.hbm, 35, rfl⟩
abbrev main_c_0 : Ref sig .tc := ⟨.hbm, 36, rfl⟩
abbrev main_v12 : Ref sig .tc := ⟨.hbm, 37, rfl⟩
abbrev main_v13 : Ref sig .tc := ⟨.hbm, 38, rfl⟩
abbrev main_c_1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst : Ref sig .tc := ⟨.hbm, 45, rfl⟩
abbrev main_call1_v0 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩

abbrev nD : Nat := 1
abbrev τ : Topo := Topo.v7x

variable {F : FTy → Type} [FloatOps F]

class Facts₀ : Prop where
  shapeCasts_S1x1024_S1024 : S1x1024.ShapeCasts S1024
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  bcast_S1024x1024_S1024x1024x1_0_1 : S1024x1024.BroadcastsInDim S1024x1024x1 (![0, 1] : Fin 2 → Fin S1024x1024x1.rank)
  shapeCasts_S32x1024x1024_S32768x1024 : S32x1024x1024.ShapeCasts S32768x1024
  bcast_S1x1024_S32768x1024_0_1 : S1x1024.BroadcastsInDim S32768x1024 (![0, 1] : Fin 2 → Fin S32768x1024.rank)
  shapeCasts_S32768x1024_S32x1024x1024 : S32768x1024.ShapeCasts S32x1024x1024
  gather_S1024_S1024x1024x1_S1024x1024_n_0_n_n_0_2_1_wf : GatherDims.WF S1024 S1024x1024x1 S1024x1024 [] [0] [] [0] [] 2 ![1]
  dot_S32768x1024_S1024x1024_S32768x1024_1_0_0_1_n_n_wf : DotDims.WF S32768x1024 S1024x1024 S32768x1024 [1] [0] [0] [1] [] []

variable [Facts₀]

def gather_S1024_S1024x1024x1_S1024x1024_n_0_n_n_0_2_1 : GatherDims S1024 S1024x1024x1 S1024x1024 where
  offsetDims := []
  collapsedSliceDims := [0]
  operandBatchingDims := []
  startIndicesBatchingDims := []
  startIndexMap := [0]
  indexVectorDim := 2
  sliceSizes := ![1]
  wf := gather_S1024_S1024x1024x1_S1024x1024_n_0_n_n_0_2_1_wf
def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf

class Facts : Prop extends Facts₀ where

variable [Facts]
-- ==== Proof.Spec.lean ====
/-
  The common value of the two programs, as one function of the three argument arrays.

  The weight row `v` (shape [1, 1024]) is laid out as the upper-triangular Toeplitz matrix
  `toep v`, whose entry (i, j) is `v[j - i]` on and above the diagonal and zero below it.  Both programs
  flatten `x` (shape [32, 1024, 1024]) to rows [32768, 1024], multiply the rows by that matrix, add the bias
  to every row, and fold the rows back to [32, 1024, 1024].  Over the extended reals the product of a row
  with a column is the plain sum over the 1024 contraction positions.
-/
import Idealize.ShloMosaic.PureOps.Ideal
import Idealize.ShloMosaic.Lib.ValueIdx

noncomputable section

namespace Cert.Toeplitz

open Idealize.ShloMosaic Idealize.ShloMosaic.ValueIdx

/-- The shapes, spelt out: the argument `x`, its rows, the weight row, the bias, the square matrix. -/
abbrev X3 : Shape := ⟨3, ![32, 1024, 1024]⟩
abbrev X2 : Shape := ⟨2, ![32768, 1024]⟩
abbrev R1 : Shape := ⟨2, ![1, 1024]⟩
abbrev B1 : Shape := ⟨1, ![1024]⟩
abbrev Sq : Shape := ⟨2, ![1024, 1024]⟩

theorem casts_X3_X2 : X3.ShapeCasts X2 := by decide
theorem casts_X2_X3 : X2.ShapeCasts X3 := by decide

/-- The upper-triangular Toeplitz matrix of the row `v`: entry (i, j) is `v[j - i]` when `i ≤ j`, else zero. -/
def toep (v : R1.Idx → EReal) : Sq.Idx → EReal :=
  fun i => if h : (i 0).val ≤ (i 1).val then v (ix2 (0 : Fin 1) (⟨(i 1).val - (i 0).val, by have := idx2_lt1 i; omega⟩ : Fin 1024)) else 0

/-- Rows times a square matrix plus a bias row: entry (r, j) is `Σ k, X[r, k] · W[k, j] + b[j]`. -/
def affine (X : X2.Idx → EReal) (W : Sq.Idx → EReal) (b : B1.Idx → EReal) : X2.Idx → EReal :=
  fun j => (∑ k : Fin 1024, X (ix2 (j 0) k) * W (ix2 k (j 1))) + b (ix1 (j 1))

/-- The result of either program as a function of `x`, the weight row and the bias. -/
def G (x : X3.Idx → EReal) (v : R1.Idx → EReal) (b : B1.Idx → EReal) : X3.Idx → EReal :=
  shapeCast X3 (affine (shapeCast X2 x casts_X3_X2) (toep v) b) casts_X2_X3

end Cert.Toeplitz

end
-- ==== Proof.KernelPay.lean ====
/-
  What the kernel body stores, read at an entry of its block: the product of the block's row with the matrix's
  column, as the plain sum over the 1024 contraction positions, plus the bias entry of that column.
-/
import proofs.«409858_j9826885174094_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx Cert.KernelIdeal

variable [Facts]
open Facts₀ Facts

/-- The contraction of the kernel's product has one axis. -/
theorem contr_rank : dot_S1024x1024_S1024x1024_S1024x1024_1_0_0_1_n_n.contr.rank = 1 := rfl

/-- That axis has the 1024 positions of the left operand's second axis. -/
theorem contr_size :
    dot_S1024x1024_S1024x1024_S1024x1024_1_0_0_1_n_n.contr.size ⟨0, by rw [contr_rank]; exact Nat.one_pos⟩ = 1024 := rfl

/-- The left operand's row is the result's row. -/
theorem lhs_axis0 (j : S1024x1024.Idx) (k : dot_S1024x1024_S1024x1024_S1024x1024_1_0_0_1_n_n.contr.Idx) :
    ((dot_S1024x1024_S1024x1024_S1024x1024_1_0_0_1_n_n.lhsIdx j k) 0 : ℕ) = (j 0).val := by
  simp [DotDims.lhsIdx, dot_S1024x1024_S1024x1024_S1024x1024_1_0_0_1_n_n]; rfl

/-- The left operand's column is the contraction position. -/
theorem lhs_axis1 (j : S1024x1024.Idx) (k : dot_S1024x1024_S1024x1024_S1024x1024_1_0_0_1_n_n.contr.Idx) :
    ((dot_S1024x1024_S1024x1024_S1024x1024_1_0_0_1_n_n.lhsIdx j k) 1 : ℕ)
      = (k ⟨0, by rw [contr_rank]; exact Nat.one_pos⟩).val :=
  DotDims.lhsIdx_val_of_single _ (cl := 1) rfl j k

/-- The right operand's row is the contraction position. -/
theorem rhs_axis0 (j : S1024x1024.Idx) (k : dot_S1024x1024_S1024x1024_S1024x1024_1_0_0_1_n_n.contr.Idx) :
    ((dot_S1024x1024_S1024x1024_S1024x1024_1_0_0_1_n_n.rhsIdx j k) 0 : ℕ)
      = (k ⟨0, by rw [contr_rank]; exact Nat.one_pos⟩).val :=
  DotDims.rhsIdx_val_of_single _ (cr := 0) rfl j k

/-- The right operand's column is the result's column. -/
theorem rhs_axis1 (j : S1024x1024.Idx) (k : dot_S1024x1024_S1024x1024_S1024x1024_1_0_0_1_n_n.contr.Idx) :
    ((dot_S1024x1024_S1024x1024_S1024x1024_1_0_0_1_n_n.rhsIdx j k) 1 : ℕ) = (j 1).val := by
  simp [DotDims.rhsIdx, dot_S1024x1024_S1024x1024_S1024x1024_1_0_0_1_n_n]; rfl

theorem pay_apply (x0 : FVec Ideal S1024x1024 .f32) (x1 : FVec Ideal S1024x1024 .bf16) (x2 : FVec Ideal S1x1024 .f32)
    (p q : Fin 1024) :
    Gen.k0_pay1 (F := Ideal) x0 x1 x2 (ix2 p q)
      = (∑ k : Fin 1024, x0 (ix2 p k) * x1 (ix2 k q)) + x2 (ix2 (0 : Fin 1) q) := by
  -- the operand indices at result entry (p, q) and contraction position k are (p, k) and (k, q)
  have hL : ∀ k : Fin 1024, dot_S1024x1024_S1024x1024_S1024x1024_1_0_0_1_n_n.lhsIdx (ix2 p q)
      ((contrEquiv1 dot_S1024x1024_S1024x1024_S1024x1024_1_0_0_1_n_n 1024 contr_rank contr_size).symm k) = ix2 p k := fun k =>
    Shape.idx_ext₂ (lhs_axis0 _ _)
      ((lhs_axis1 _ _).trans (contrEquiv1_symm_val dot_S1024x1024_S1024x1024_S1024x1024_1_0_0_1_n_n 1024 contr_rank contr_size k))
  have hR : ∀ k : Fin 1024, dot_S1024x1024_S1024x1024_S1024x1024_1_0_0_1_n_n.rhsIdx (ix2 p q)
      ((contrEquiv1 dot_S1024x1024_S1024x1024_S1024x1024_1_0_0_1_n_n 1024 contr_rank contr_size).symm k) = ix2 k q := fun k =>
    Shape.idx_ext₂
      ((rhs_axis0 _ _).trans (contrEquiv1_symm_val dot_S1024x1024_S1024x1024_S1024x1024_1_0_0_1_n_n 1024 contr_rank contr_size k))
      (rhs_axis1 _ _)
  unfold Gen.k0_pay1
  simp only [shapeCast_self]
  rw [addf_apply, broadcastTo_1b_ab_apply]
  simp only [matmul]
  rw [Ideal.matmul_constant_zero_apply,
    ← Equiv.sum_comp (contrEquiv1 dot_S1024x1024_S1024x1024_S1024x1024_1_0_0_1_n_n 1024 contr_rank contr_size).symm]
  refine congrArg (· + x2 (ix2 (0 : Fin 1) q)) (Finset.sum_congr rfl fun k _ => ?_)
  rw [hL k, hR k]
  rfl

end Cert.KernelIdeal.Hand

end
-- ==== Proof.KernelW.lean ====
/-
  The kernel program's square weight matrix, as the host operations before the region build it from the
  weight row: the row is repeated 1025 times, the repetitions are read as one flat run of 1025 · 1024 entries and
  cut into 1024 rows of 1025, of which the first 1024 columns are kept (`tiled`: entry (r, c) is
  `v[(r + c) mod 1024]`); the rows after the first are put in reverse order (`flipped`: row i ≥ 1 is row
  1024 - i of `tiled`); the entries below the diagonal are replaced by zero (`upper` is the mask j ≥ i) and the
  matrix is converted to bf16.
-/
import proofs.«409858_j9826885174094_3_alg».proof.KernelIdeal
import Idealize.ShloMosaic.Lib.ValueIdx

noncomputable section

namespace Cert.KernelIdeal.Hand

open Idealize.ShloMosaic Idealize.ShloMosaic.ValueIdx Cert.KernelIdeal

variable {F : FTy → Type} [FloatOps F] [Facts]
open Facts₀ Facts

/-- Entry (r, c) is entry r · 1025 + c of the row repeated end to end. -/
def tiled (a1 : FVec F S1x1024 .f32) : FVec F S1024x1024 .f32 :=
  extractStridedSlice S1024x1024 ![0, 0]
    (shapeCast S1024x1025 (shapeCast S1049600 (broadcastInDim S1025x1024 ![0, 1] bcast_S1x1024_S1025x1024_0_1
      (shapeCast S1x1024 (shapeCast S1024 a1 shapeCasts_S1x1024_S1024) shapeCasts_S1024_S1x1024))
      shapeCasts_S1025x1024_S1049600) shapeCasts_S1049600_S1024x1025)
    slices_S1024x1025_S1024x1024_0_0

/-- Row 0 kept, rows 1 … 1023 in reverse order. -/
def flipped (c5 : FVec F S1024x1024 .f32) : FVec F S1024x1024 .f32 :=
  concatenate S1024x1024 0
    [⟨S1x1024, extractStridedSlice S1x1024 ![0, 0] c5 slices_S1024x1024_S1x1024_0_0⟩,
     ⟨S1023x1024, Host.reverse [0] (extractStridedSlice S1023x1024 ![1, 0] c5 slices_S1024x1024_S1023x1024_1_0)⟩]
    concatenates_S1x1024_S1023x1024_S1024x1024_d0

/-- The mask of the entries on and above the diagonal: column index ≥ row index, compared as signed words. -/
def upper : IVec S1024x1024 1 :=
  cmpi .sge
    (broadcastInDim S1024x1024 ![0, 1] bcast_S1x1024_S1024x1024_0_1 (broadcastInDim S1x1024 ![1] bcast_S1024_S1x1024_1 (iotaInDim S1024 32 0)))
    (broadcastInDim S1024x1024 ![0, 1] bcast_S1024x1_S1024x1024_0_1 (broadcastInDim S1024x1 ![0] bcast_S1024_S1024x1_0 (iotaInDim S1024 32 0)))

/-- The matrix the region is given. -/
def kW (a1 : FVec F S1x1024 .f32) : FVec F S1024x1024 .bf16 :=
  truncf .bf16 (select upper (flipped (tiled a1)) (broadcastInDim S1024x1024 ![] bcast_S_S1024x1024 (constant S_ .f32 0x00000000#32)))
    bitsLt_bf16_f32

end Cert.KernelIdeal.Hand

end
-- ==== Proof.KernelWEq.lean ====
/-
  The matrix the kernel program builds from the weight row is the upper-triangular Toeplitz matrix of the row.
-/
import proofs.«409858_j9826885174094_3_alg».proof.Proof.KernelW
import proofs.«409858_j9826885174094_3_alg».proof.Proof.Spec
import Idealize.ShloMosaic.Lib.Pipeline.Value
import Idealize.ShloMosaic.Lib.ValueLayout
import Idealize.ShloMosaic.Lib.StableHlo.Predicate
import Idealize.ShloMosaic.PureOps.Ideal.Laws

noncomputable section

namespace Cert.KernelIdeal.Hand

open Idealize.ShloMosaic Idealize.ShloMosaic.ValueIdx Cert.KernelIdeal

variable [Facts]
open Facts₀ Facts

/-- The row repeated 1025 times, read as one flat run and re-cut into rows of 1025: entry (r, c) of the kept square is
    entry r · 1025 + c of the run, which is the row's entry at that position's residue mod 1024. -/
theorem tiled_apply (v : FVec Ideal S1x1024 .f32) (r c : Fin 1024) :
    tiled (F := Ideal) v (ix2 r c)
      = v (ix2 (0 : Fin 1) (⟨(r.val * 1025 + c.val) % 1024, Nat.mod_lt _ (by decide)⟩ : Fin 1024)) := by
  have hr := r.isLt
  have hc := c.isLt
  have hv : shapeCast S1x1024 (shapeCast S1024 v shapeCasts_S1x1024_S1024) shapeCasts_S1024_S1x1024 = v :=
    shapeCast_shapeCast v _ _
  unfold tiled
  rw [hv]
  -- the slice keeps the column
  refine (slice2_axis1_apply 0 _ slices_S1024x1025_S1024x1024_0_0 r c (⟨c.val, by omega⟩ : Fin 1025)
    (Nat.zero_add _).symm).trans ?_
  -- the second reshape: entry (r, c) of the rows of 1025 is position r · 1025 + c of the flat run
  refine (shapeCast_apply _ shapeCasts_S1049600_S1024x1025 _
    (ix1 (⟨r.val * 1025 + c.val, by omega⟩ : Fin 1049600)) ?_).trans ?_
  · rw [Shape.rowMajor_val_one, Shape.rowMajor_val_two]
    rfl
  -- the first reshape: that position is entry (quotient, residue) of the 1025 rows of 1024
  refine (shapeCast_apply _ shapeCasts_S1025x1024_S1049600 _
    (ix2 (⟨(r.val * 1025 + c.val) / 1024, by omega⟩ : Fin 1025)
      (⟨(r.val * 1025 + c.val) % 1024, Nat.mod_lt _ (by decide)⟩ : Fin 1024)) ?_).trans ?_
  · rw [Shape.rowMajor_val_one, Shape.rowMajor_val_two]
    show (r.val * 1025 + c.val) / 1024 * 1024 + (r.val * 1025 + c.val) % 1024 = r.val * 1025 + c.val
    omega
  -- every one of the 1025 rows is the weight row
  refine broadcastInDim_apply _ _ _ _ _ (fun a => ?_)
  match a with
  | ⟨0, _⟩ => rfl
  | ⟨1, _⟩ => rfl

/-- A reversal along the rows of a matrix reads row `p` from the mirrored row. -/
theorem reverse_rows_apply {n m : Nat} {α : Type} (X : (⟨2, ![n, m]⟩ : Shape).Idx → α) (p : Fin n) (c : Fin m) :
    Host.reverse [0] X (ix2 p c) = X (ix2 p.rev c) := by
  unfold Host.reverse
  refine congrArg X (funext fun a => ?_)
  match a with
  | ⟨0, _⟩ => rfl
  | ⟨1, _⟩ => rfl

/-- Row 0 of the flipped matrix is row 0 of the matrix. -/
theorem flipped_zero (M : FVec Ideal S1024x1024 .f32) (i c : Fin 1024) (hi : i.val = 0) :
    flipped (F := Ideal) M (ix2 i c) = M (ix2 i c) := by
  unfold flipped
  refine (concatenate_pair_apply_left _ _ _ concatenates_S1x1024_S1023x1024_S1024x1024_d0 (ix2 i c) rfl
    (ix2 (0 : Fin 1) c) (fun b => ?_)).trans ?_
  · match b with
    | ⟨0, _⟩ => exact hi.symm
    | ⟨1, _⟩ => rfl
  exact slice2_axis0_apply 0 M slices_S1024x1024_S1x1024_0_0 (0 : Fin 1) c i (by rw [hi]; rfl)

/-- Row i ≥ 1 of the flipped matrix is row 1024 - i of the matrix: row i - 1 of the second piece, which is rows
    1 … 1023 in reverse order, so row 1 + (1022 - (i - 1)). -/
theorem flipped_succ (M : FVec Ideal S1024x1024 .f32) (i c : Fin 1024) (hi : 1 ≤ i.val) :
    flipped (F := Ideal) M (ix2 i c) = M (ix2 (⟨1024 - i.val, by omega⟩ : Fin 1024) c) := by
  have hlt := i.isLt
  unfold flipped
  refine (concatenate_pair_apply_right _ _ _ concatenates_S1x1024_S1023x1024_S1024x1024_d0 (ix2 i c) rfl rfl
    (ix2 (⟨i.val - 1, by omega⟩ : Fin 1023) c) (fun b hb => ?_) ?_).trans ?_
  · match b with
    | ⟨0, _⟩ => exact absurd rfl hb
    | ⟨1, _⟩ => rfl
  · show i.val - 1 + 1 = i.val
    omega
  refine (reverse_rows_apply _ _ c).trans ?_
  refine slice2_axis0_apply 1 M slices_S1024x1024_S1023x1024_1_0 _ c _ ?_
  show 1024 - i.val = 1 + (1023 - (i.val - 1 + 1))
  omega

/-- The mask is set at (p, q) exactly when p ≤ q: the two operands are the column and the row position as 32-bit
    words, both below 1024, and such words compare signed as their values. -/
theorem upper_apply (p q : Fin 1024) : upper (ix2 p q) = 1#1 ↔ p.val ≤ q.val := by
  have hp := p.isLt
  have hq := q.isLt
  have hA : broadcastInDim S1024x1024 ![0, 1] bcast_S1x1024_S1024x1024_0_1
      (broadcastInDim S1x1024 ![1] bcast_S1024_S1x1024_1 (iotaInDim S1024 32 0)) (ix2 p q) = BitVec.ofNat 32 q.val := by
    refine (broadcastInDim_apply _ _ _ (ix2 p q) (ix2 (0 : Fin 1) q) (fun a => ?_)).trans ?_
    · match a with
      | ⟨0, _⟩ => rfl
      | ⟨1, _⟩ => rfl
    refine (broadcastInDim_apply _ _ _ (ix2 (0 : Fin 1) q) (ix1 q) (fun a => ?_)).trans ?_
    · match a with
      | ⟨0, _⟩ => rfl
    rfl
  have hB : broadcastInDim S1024x1024 ![0, 1] bcast_S1024x1_S1024x1024_0_1
      (broadcastInDim S1024x1 ![0] bcast_S1024_S1024x1_0 (iotaInDim S1024 32 0)) (ix2 p q) = BitVec.ofNat 32 p.val := by
    refine (broadcastInDim_apply _ _ _ (ix2 p q) (ix2 p (0 : Fin 1)) (fun a => ?_)).trans ?_
    · match a with
      | ⟨0, _⟩ => rfl
      | ⟨1, _⟩ => rfl
    refine (broadcastInDim_apply _ _ _ (ix2 p (0 : Fin 1)) (ix1 p) (fun a => ?_)).trans ?_
    · match a with
      | ⟨0, _⟩ => rfl
    rfl
  unfold upper
  show IntOp.cmpi .sge _ _ = 1#1 ↔ _
  rw [hA, hB]
  have hqn : (BitVec.ofNat 32 q.val).toNat = q.val := by rw [BitVec.toNat_ofNat]; omega
  have hpn : (BitVec.ofNat 32 p.val).toNat = p.val := by rw [BitVec.toNat_ofNat]; omega
  rw [StableHlo.Predicate.sge_iff_toNat (by omega) (by omega), hqn, hpn]

theorem kW_eq (v : FVec Ideal S1x1024 .f32) : kW (F := Ideal) v = Cert.Toeplitz.toep v := by
  funext j
  obtain ⟨p, q, rfl⟩ : ∃ (p : Fin 1024) (q : Fin 1024), j = ix2 p q := ⟨j 0, j 1, eq_ix2 j⟩
  have hp := p.isLt
  have hq := q.isLt
  unfold kW
  rw [truncf_apply, select_apply]
  by_cases h : p.val ≤ q.val
  · -- on and above the diagonal the mask keeps the flipped entry
    rw [(upper_apply p q).2 h, select_one]
    have ht : Cert.Toeplitz.toep v (ix2 p q)
        = v (ix2 (0 : Fin 1) (⟨q.val - p.val, by omega⟩ : Fin 1024)) := dif_pos h
    rw [ht]
    by_cases h0 : p.val = 0
    · rw [flipped_zero _ p q h0, tiled_apply]
      congr 2
      apply Fin.ext
      show (p.val * 1025 + q.val) % 1024 = q.val - p.val
      omega
    · rw [flipped_succ _ p q (by omega), tiled_apply]
      congr 2
      apply Fin.ext
      show ((1024 - p.val) * 1025 + q.val) % 1024 = q.val - p.val
      omega
  · -- below the diagonal the mask takes the zero constant
    rw [eq_zero_of_ne_one (fun h1 => h ((upper_apply p q).1 h1)), select_zero]
    have ht : Cert.Toeplitz.toep v (ix2 p q) = 0 := dif_neg h
    rw [ht]
    show Ideal.ofBits .f32 0x00000000#32 = 0
    exact Ideal.ofBits_zero_f32

end Cert.KernelIdeal.Hand

end
-- ==== Proof.KernelValue.lean ====
/-
  The kernel region's output array after the run, as one function of the three arrays the region is given.

  The grid has 32 points; point t is given rows 1024·t … 1024·t + 1023 of the row array (its whole width), the
  whole square matrix and the whole bias row, and writes rows 1024·t … 1024·t + 1023 of the output.  What it
  writes at (p, q) of its block is the product of row p of its row block with column q of the matrix, plus the
  bias entry q; read through the blocks this is entry (1024·t + p, q) of `rowsOut`, the same expression over
  the whole arrays.  The 32 row blocks cover the output array, so after the run the array is `rowsOut`.
-/
import proofs.«409858_j9826885174094_3_alg».proof.Proof.Gen.KernelIdeal.Frame
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- What the body stores, at an entry of its block: the row times the column, plus the bias entry. -/
def PayAt : Prop :=
  ∀ (x0 : FVec Ideal S1024x1024 .f32) (x1 : FVec Ideal S1024x1024 .bf16) (x2 : FVec Ideal S1x1024 .f32) (p q : Fin 1024),
    k0_pay1 (F := Ideal) x0 x1 x2 (ix2 p q) = (∑ k : Fin 1024, x0 (ix2 p k) * x1 (ix2 k q)) + x2 (ix2 (0 : Fin 1) q)

/-- The three arrays as the region finds them: the rows, the square matrix, the bias row. -/
abbrev xarr (c : Dev nD) : FVec Ideal S32768x1024 .f32 := V m c main_call0_v20
abbrev warr (c : Dev nD) : FVec Ideal S1024x1024 .bf16 := V m c main_call0_v18
abbrev barr (c : Dev nD) : FVec Ideal S1x1024 .f32 := V m c main_call0_v19

/-- The output array: entry (r, j) is row r of the rows times column j of the matrix, plus bias entry j. -/
def rowsOut (c : Dev nD) : FVec Ideal S32768x1024 .f32 :=
  fun j => (∑ k : Fin 1024, xarr m c (ix2 (j 0) k) * warr m c (ix2 k (j 1))) + barr m c (ix2 (0 : Fin 1) (j 1))

theorem hz : (![0, 0] : Fin 2 → Nat) = fun _ => 0 := funext fun a => by fin_cases a <;> rfl

/-- The block indices at a point: the row block moves with the output block along the rows; every other block
    index is zero; there are 32 row blocks. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 31 :=
  (by decide +kernel : ∀ t : Fin grid0.N, _)

/-- Every row block of the output is some point's. -/
theorem idx_onto : ∀ q0 : Fin 32, ∃ t : Fin cfg0.N, win0_3.index t = ![q0.val, 0] :=
  (by decide +kernel : ∀ q0 : Fin 32, ∃ t : Fin grid0.N, win0_3.index t = ![q0.val, 0])

/-- What point t writes back is block t of `rowsOut`. -/
theorem flushed_eq (hpay : PayAt) (c : Dev nD) (t : Fin cfg0.N) :
    (dats m 0 c).flushed 3 t = ((cfg0.win 3).blk t).view.read (Elt Ideal) (rowsOut m c) := by
  show (cfg0.win 3).cut (grid0.coords t) ((dats m 0 c).after 3 t) = _
  rw [after0_3]
  unfold out0_3
  rw [View.canon_unit_zero hz]
  simp only [View.ld_unit_zero (S := S1024x1024) hz, View.ld_unit_zero (S := S1x1024) hz]
  obtain ⟨e0, e1, e2, e3, e4, e5, e6, e7⟩ := idx_facts t
  funext j
  obtain ⟨p, q, rfl⟩ : ∃ (p q : Fin 1024), j = ix2 p q := ⟨j 0, j 1, eq_ix2 j⟩
  show k0_pay1 (F := Ideal) (iblk m c 0 t) (iblk m c 1 t) (iblk m c 2 t) (ix2 p q)
    = rowsOut m c (((cfg0.win 3).blk t).view.emb (ix2 p q))
  refine (hpay (iblk m c 0 t) (iblk m c 1 t) (iblk m c 2 t) p q).trans ?_
  have hx : ∀ k : Fin 1024, iblk m c 0 t (ix2 p k)
      = xarr m c (ix2 ((((cfg0.win 3).blk t).view.emb (ix2 p q)) 0) k) := fun k => by
    show xarr m c (((cfg0.win 0).blk t).view.emb (ix2 p k)) = _
    refine congrArg (xarr m c) ?_
    funext a; apply Fin.ext
    match a with
    | ⟨0, _⟩ => show win0_0.index t (0 : Fin 2) * 1024 + 1 * p.val = win0_3.index t (0 : Fin 2) * 1024 + 1 * p.val; omega
    | ⟨1, _⟩ => show win0_0.index t (1 : Fin 2) * 1024 + 1 * k.val = k.val; omega
  have hw : ∀ k : Fin 1024, iblk m c 1 t (ix2 k q)
      = warr m c (ix2 k ((((cfg0.win 3).blk t).view.emb (ix2 p q)) 1)) := fun k => by
    show warr m c (((cfg0.win 1).blk t).view.emb (ix2 k q)) = _
    refine congrArg (warr m c) ?_
    funext a; apply Fin.ext
    match a with
    | ⟨0, _⟩ => show win0_1.index t (0 : Fin 2) * 1024 + 1 * k.val = k.val; omega
    | ⟨1, _⟩ => show win0_1.index t (1 : Fin 2) * 1024 + 1 * q.val = win0_3.index t (1 : Fin 2) * 1024 + 1 * q.val; omega
  have hb : iblk m c 2 t (ix2 (0 : Fin 1) q)
      = barr m c (ix2 (0 : Fin 1) ((((cfg0.win 3).blk t).view.emb (ix2 p q)) 1)) := by
    show barr m c (((cfg0.win 2).blk t).view.emb (ix2 (0 : Fin 1) q)) = _
    refine congrArg (barr m c) ?_
    funext a; apply Fin.ext
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + 1 * q.val; omega
  unfold rowsOut
  exact congrArg₂ (· + ·) (Finset.sum_congr rfl fun k _ => congrArg₂ (· * ·) (hx k) (hw k)) hb

/-- An index of the output array is in point t's block iff each coordinate is in the block's range. -/
theorem mem_blk (t : Fin cfg0.N) (i : S32768x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_call0_v21).slice (win0_3.rect t)).set ↔ _
  rw [View.set_slice_whole, Rect.mem_set_unit]
  exact Iff.rfl

/-- Every index of the output array is in the block of the point its row falls in. -/
theorem cover (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The output array after the run. -/
theorem final (hpay : PayAt) (c : Dev nD) : (dats m 0 c).arrAt 3 cfg0.N = rowsOut m c :=
  (dats m 0 c).arrAt_eq_of_cover 3 (rowsOut m c) (fun t _ => flushed_eq m hpay c t) cover

end Cert.KernelIdeal.Hand

end
-- ==== Proof.KernelHost.lean ====
/-
  The three arrays the kernel region is given, as functions of the program's arguments: the rows are `x` with its
  two leading axes merged, the bias row is the bias with a leading unit axis, and the square matrix is `kW` of
  the weight row — each read off the host operations that run before the region.
-/
import proofs.«409858_j9826885174094_3_alg».proof.Proof.Gen.KernelIdeal.Frame
import proofs.«409858_j9826885174094_3_alg».proof.Proof.KernelW
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The rows: `x` with its two leading axes merged. -/
theorem rows_entry (c : Dev nD) :
    (V m c main_call0_v20 : FVec F S32768x1024 .f32)
      = shapeCast S32768x1024 (m ((c : Thread nD τ).loc main_arg0)) shapeCasts_S32x1024x1024_S32768x1024 := by
  show StableHlo.after hostOps0 (fun b => m (c, b)) (Proc.devRef .tc main_call0_v20) = _
  after_results
  rfl

/-- The bias row: the bias with a leading unit axis. -/
theorem bias_entry (c : Dev nD) :
    (V m c main_call0_v19 : FVec F S1x1024 .f32)
      = shapeCast S1x1024 (m ((c : Thread nD τ).loc main_arg2)) shapeCasts_S1024_S1x1024 := by
  show StableHlo.after hostOps0 (fun b => m (c, b)) (Proc.devRef .tc main_call0_v19) = _
  after_results
  rfl

/-- The square matrix: `kW` of the weight row. -/
theorem matrix_entry (c : Dev nD) :
    (V m c main_call0_v18 : FVec F S1024x1024 .bf16) = kW (m ((c : Thread nD τ).loc main_arg1)) := by
  show StableHlo.after hostOps0 (fun b => m (c, b)) (Proc.devRef .tc main_call0_v18) = _
  after_results
  unfold kW tiled flipped upper
  rfl

end Cert.KernelIdeal.Hand

end
-- ==== Proof.KernelRun.lean ====
/-
  The kernel program's run with its result named.  After the region one host operation folds the output rows
  [32768, 1024] back to [32, 1024, 1024]; the region's output array is `rowsOut`, and with the three arrays the
  region is given read off the host operations before it, `rowsOut` is `affine` of the merged `x`, the matrix
  `kW` of the weight row, and the bias.
-/
import proofs.«409858_j9826885174094_3_alg».proof.Proof.KernelValue
import proofs.«409858_j9826885174094_3_alg».proof.Proof.KernelHost
import proofs.«409858_j9826885174094_3_alg».proof.Proof.Spec
import Idealize.ShloMosaic.Lib.ValueLayout

noncomputable section

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The program's result after the lines that follow the region: the region's output array, folded back. -/
theorem tail_eq (c : Dev nD) :
    Pipeline.afterTail₀ cfgs (dats m) 0 (V0 m) [hostOps1] c main_v0
      = shapeCast S32x1024x1024 ((dats m 0 c).arrAt 3 cfg0.N) shapeCasts_S32768x1024_S32x1024x1024 := by
  unfold Pipeline.afterTail₀
  show StableHlo.after hostOps1 _ (Proc.devRef .tc main_v0) = _
  after_results
  have hw := Pipeline.withArrays_arr spec0 launch0.win.arr_inj c (V0 m c) (fun w => (dats m 0 c).arrAt w cfg0.N) 3
  show shapeCast S32x1024x1024 (Pipeline.withArrays spec0 c (V0 m c) (fun w => (dats m 0 c).arrAt w cfg0.N)
      (Proc.devRef .tc (Pipeline.arrRef spec0 3))) shapeCasts_S32768x1024_S32x1024x1024 = _
  rw [hw]

/-- The run, with the result at the folded `rowsOut` and the arguments as they were. -/
theorem run_rows (hpay : PayAt) :
    θ_run defs (onTc (τ := τ) (main (F := Ideal))) ⟨m, fun _ => 0, ρ⟩ fun r => ∀ c : Dev nD,
      r.2.mem ((c.tc : Thread nD τ).loc main_v0)
        = shapeCast S32x1024x1024 (rowsOut m c) shapeCasts_S32768x1024_S32x1024x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v0 (Pipeline.mem_restRefs_of main_v0 (by decide) (by decide))).trans
        ((tail_eq m c).trans (congrArg (fun A => shapeCast S32x1024x1024 A shapeCasts_S32768x1024_S32x1024x1024) (final m hpay c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-- The three arguments as launched, at their literal types. -/
abbrev xin (c : Dev nD) : FVec Ideal S32x1024x1024 .f32 := m ((c.tc : Thread nD τ).loc main_arg0)
abbrev vin (c : Dev nD) : FVec Ideal S1x1024 .f32 := m ((c.tc : Thread nD τ).loc main_arg1)
abbrev bin (c : Dev nD) : FVec Ideal S1024 .f32 := m ((c.tc : Thread nD τ).loc main_arg2)

/-- `rowsOut` over the program's arguments, given that the matrix built from the weight row is its Toeplitz matrix. -/
theorem rowsOut_eq (hW : ∀ v : FVec Ideal S1x1024 .f32, kW (F := Ideal) v = Cert.Toeplitz.toep v) (c : Dev nD) :
    rowsOut m c = Cert.Toeplitz.affine (shapeCast Cert.Toeplitz.X2 (xin m c) Cert.Toeplitz.casts_X3_X2)
      (Cert.Toeplitz.toep (vin m c)) (bin m c) := by
  funext j
  obtain ⟨r, q, rfl⟩ : ∃ (r : Fin 32768) (q : Fin 1024), j = ix2 r q := ⟨j 0, j 1, eq_ix2 j⟩
  show (∑ k : Fin 1024, xarr m c (ix2 r k) * warr m c (ix2 k q)) + barr m c (ix2 (0 : Fin 1) q)
    = (∑ k : Fin 1024, shapeCast Cert.Toeplitz.X2 (xin m c) Cert.Toeplitz.casts_X3_X2 (ix2 r k)
        * Cert.Toeplitz.toep (vin m c) (ix2 k q)) + bin m c (ix1 q)
  have hx : xarr m c = shapeCast Cert.Toeplitz.X2 (xin m c) Cert.Toeplitz.casts_X3_X2 :=
    rows_entry m c
  have hw : warr m c = Cert.Toeplitz.toep (vin m c) :=
    (matrix_entry m c).trans (hW _)
  have hb : barr m c (ix2 (0 : Fin 1) q) = bin m c (ix1 q) := by
    rw [show barr m c = shapeCast S1x1024 (bin m c) shapeCasts_S1024_S1x1024 from bias_entry m c]
    exact shapeCast_a_1a_apply _ _ (0 : Fin 1) q
  rw [hx, hw, hb]

end Cert.KernelIdeal.Hand

end
-- ==== Proof.RefW.lean ====
/-
  The reference program's square weight matrix, as its operations build it from the weight row: the
  difference j - i of the column and row indices is reduced modulo 1024 to a non-negative word (`modIdx`: the
  truncated remainder, moved up by 1024 when it is negative, and once more by the indexing's own wrap of a negative
  index), the flattened row is read at that word, and the entries below the diagonal are replaced by zero.
-/
import proofs.«409858_j9826885174094_3_alg».proof.ReferenceIdeal
import Idealize.ShloMosaic.Lib.ValueIdx

noncomputable section

namespace Cert.ReferenceIdeal.Hand

open Idealize.ShloMosaic Idealize.ShloMosaic.ValueIdx Cert.ReferenceIdeal

variable {F : FTy → Type} [FloatOps F] [Facts]
open Facts₀ Facts

/-- The column index of an entry, as a word. -/
def colIdx : IVec S1024x1024 32 :=
  broadcastInDim S1024x1024 ![0, 1] bcast_S1x1024_S1024x1024_0_1 (broadcastInDim S1x1024 ![1] bcast_S1024_S1x1024_1 (iotaInDim S1024 32 0))
/-- The row index of an entry, as a word. -/
def rowIdx : IVec S1024x1024 32 :=
  broadcastInDim S1024x1024 ![0, 1] bcast_S1024x1_S1024x1024_0_1 (broadcastInDim S1024x1 ![0] bcast_S1024_S1024x1_0 (iotaInDim S1024 32 0))

/-- The mask of the entries on and above the diagonal. -/
def upper : IVec S1024x1024 1 := cmpi .sge colIdx rowIdx

/-- The divisor as the remainder function prepares it: 1024, or 1 were it zero. -/
def divisor : IVec S_ 32 :=
  select (cmpi .eq (id (constantI S_ 32 1024#32)) (constantI S_ 32 0#32)) (constantI S_ 32 1#32) (id (constantI S_ 32 1024#32))

/-- The truncated remainder of j - i by the divisor. -/
def trem : IVec S1024x1024 32 :=
  Host.remsi (subi colIdx rowIdx) (broadcastInDim S1024x1024 ![] bcast_S_S1024x1024 divisor)

/-- The floored remainder: the truncated one, plus the divisor where its sign differs from the divisor's and it is not zero. -/
def frem : IVec S1024x1024 32 :=
  select
    (andi
      (cmpi .ne
        (cmpi .slt trem (broadcastInDim S1024x1024 ![] bcast_S_S1024x1024 (constantI S_ 32 0#32)))
        (broadcastInDim S1024x1024 ![] bcast_S_S1024x1024 (cmpi .slt divisor (constantI S_ 32 0#32))))
      (cmpi .ne trem (broadcastInDim S1024x1024 ![] bcast_S_S1024x1024 (constantI S_ 32 0#32))))
    (addi trem (broadcastInDim S1024x1024 ![] bcast_S_S1024x1024 divisor))
    trem

/-- The index the row is read at: the floored remainder, wrapped once more by 1024 were it negative. -/
def modIdx : IVec S1024x1024 32 :=
  select (cmpi .slt frem (broadcastInDim S1024x1024 ![] bcast_S_S1024x1024 (constantI S_ 32 0#32)))
    (addi frem (broadcastInDim S1024x1024 ![] bcast_S_S1024x1024 (constantI S_ 32 1024#32)))
    frem

/-- The matrix the product is taken with. -/
def rW (a1 : FVec F S1x1024 .f32) : FVec F S1024x1024 .f32 :=
  select upper
    (Host.gather gather_S1024_S1024x1024x1_S1024x1024_n_0_n_n_0_2_1 (shapeCast S1024 a1 shapeCasts_S1x1024_S1024)
      (broadcastInDim S1024x1024x1 ![0, 1] bcast_S1024x1024_S1024x1024x1_0_1 modIdx))
    (broadcastInDim S1024x1024 ![] bcast_S_S1024x1024 (constant S_ .f32 0x00000000#32))

/-- The whole result from the three arguments. -/
def refTerm (x : FVec F S32x1024x1024 .f32) (a1 : FVec F S1x1024 .f32) (a2 : FVec F S1024 .f32) : FVec F S32x1024x1024 .f32 :=
  shapeCast S32x1024x1024
    (addf (Host.dotGeneral dot_S32768x1024_S1024x1024_S32768x1024_1_0_0_1_n_n none (shapeCast S32768x1024 x shapeCasts_S32x1024x1024_S32768x1024) (rW a1))
      (broadcastInDim S32768x1024 ![0, 1] bcast_S1x1024_S32768x1024_0_1 (broadcastInDim S1x1024 ![1] bcast_S1024_S1x1024_1 a2)))
    shapeCasts_S32768x1024_S32x1024x1024

end Cert.ReferenceIdeal.Hand

end
-- ==== Proof.RefWEq.lean ====
/-
  The matrix the reference program builds from the weight row is the upper-triangular Toeplitz matrix of the row.
-/
import proofs.«409858_j9826885174094_3_alg».proof.Proof.RefW
import proofs.«409858_j9826885174094_3_alg».proof.Proof.Spec
import Idealize.ShloMosaic.Lib.Pipeline.Value
import Idealize.ShloMosaic.Lib.ValueLayout
import Idealize.ShloMosaic.Lib.StableHlo.Predicate
import Idealize.ShloMosaic.PureOps.Ideal.Laws

noncomputable section

namespace Cert.ReferenceIdeal.Hand

open Idealize.ShloMosaic Idealize.ShloMosaic.ValueIdx Cert.ReferenceIdeal

variable [Facts]
open Facts₀ Facts

/-- The word-level chain of the index computation, as a function of the difference word: the divisor as prepared,
    the truncated remainder, the floored remainder, and the final wrap of a negative index. -/
private def chain (x : BitVec 32) : BitVec 32 :=
  let dv : BitVec 32 := Scalar.select (IntOp.cmpi .eq 1024#32 0#32) 1#32 1024#32
  let t : BitVec 32 := IntOp.remsi .host x dv
  let f : BitVec 32 :=
    Scalar.select
      (IntOp.andi (IntOp.cmpi .ne (IntOp.cmpi .slt t 0#32) (IntOp.cmpi .slt dv 0#32)) (IntOp.cmpi .ne t 0#32))
      (IntOp.addi t dv) t
  Scalar.select (IntOp.cmpi .slt f 0#32) (IntOp.addi f 1024#32) f

/-- On a difference below 1024 every step of the chain is the identity. -/
private theorem chain_small : ∀ d : Fin 1024, chain (BitVec.ofNat 32 d.val) = BitVec.ofNat 32 d.val := by
  decide +kernel

/-- The two index conventions for a rectangle name the same index. -/
private theorem ij_eq_ix2 {n m : Nat} (p : Fin n) (q : Fin m) : StableHlo.Predicate.ij p q = ix2 p q := by
  funext d; match d with | ⟨0, _⟩ => rfl | ⟨1, _⟩ => rfl

/-- The column index at (p, q) is the word q. -/
private theorem colIdx_apply (p q : Fin 1024) : colIdx (ix2 p q) = BitVec.ofNat 32 q.val := by
  unfold colIdx
  rw [← ij_eq_ix2]
  exact (StableHlo.Predicate.bcast_cols _ _ _ p q).trans (StableHlo.Predicate.iota_apply q)

/-- The row index at (p, q) is the word p. -/
private theorem rowIdx_apply (p q : Fin 1024) : rowIdx (ix2 p q) = BitVec.ofNat 32 p.val := by
  unfold rowIdx
  rw [← ij_eq_ix2]
  exact (StableHlo.Predicate.bcast_rows _ _ _ p q).trans (StableHlo.Predicate.iota_apply p)

/-- The index word at an entry is the chain applied to the difference of the column and row words. -/
private theorem modIdx_eq_chain (j : S1024x1024.Idx) : modIdx j = chain (IntOp.subi (colIdx j) (rowIdx j)) := rfl

/-- The mask at (p, q) is set exactly when p ≤ q. -/
private theorem upper_apply (p q : Fin 1024) : upper (ix2 p q) = 1#1 ↔ p.val ≤ q.val := by
  have hp : (BitVec.ofNat 32 p.val).toNat = p.val := by
    rw [BitVec.toNat_ofNat]; exact Nat.mod_eq_of_lt (by have := p.isLt; omega)
  have hq : (BitVec.ofNat 32 q.val).toNat = q.val := by
    rw [BitVec.toNat_ofNat]; exact Nat.mod_eq_of_lt (by have := q.isLt; omega)
  show IntOp.cmpi .sge (colIdx (ix2 p q)) (rowIdx (ix2 p q)) = 1#1 ↔ _
  rw [colIdx_apply, rowIdx_apply,
    StableHlo.Predicate.sge_iff_toNat (by rw [hq]; have := q.isLt; omega) (by rw [hp]; have := p.isLt; omega), hp, hq]

/-- On and above the diagonal the index word at (p, q) is the word q - p. -/
private theorem modIdx_apply (p q : Fin 1024) (h : p.val ≤ q.val) : modIdx (ix2 p q) = BitVec.ofNat 32 (q.val - p.val) := by
  have hsub : IntOp.subi (BitVec.ofNat 32 q.val) (BitVec.ofNat 32 p.val) = BitVec.ofNat 32 (q.val - p.val) := by
    apply BitVec.eq_of_toNat_eq
    show ((BitVec.ofNat 32 q.val) - (BitVec.ofNat 32 p.val)).toNat = _
    have := p.isLt; have := q.isLt
    simp only [BitVec.toNat_sub, BitVec.toNat_ofNat]
    omega
  rw [modIdx_eq_chain, colIdx_apply, rowIdx_apply, hsub]
  exact chain_small ⟨q.val - p.val, by have := q.isLt; omega⟩

/-- The gathered entry at (p, q), on and above the diagonal, is the row's entry q - p. -/
private theorem gather_apply (v : FVec Ideal S1x1024 .f32) (p q : Fin 1024) (h : p.val ≤ q.val) :
    Host.gather gather_S1024_S1024x1024x1_S1024x1024_n_0_n_n_0_2_1 (shapeCast S1024 v shapeCasts_S1x1024_S1024)
      (broadcastInDim S1024x1024x1 ![0, 1] bcast_S1024x1024_S1024x1024x1_0_1 modIdx) (ix2 p q)
      = v (ix2 (0 : Fin 1) (⟨q.val - p.val, by have := q.isLt; omega⟩ : Fin 1024)) := by
  have hd : q.val - p.val < 1024 := by have := q.isLt; omega
  refine (gather_take_apply (N := 1024) (R := 1024) (C := 1024) (by decide)
    gather_S1024_S1024x1024x1_S1024x1024_n_0_n_n_0_2_1_wf _ _ (ix2 p q)).trans ?_
  have hb : broadcastInDim S1024x1024x1 ![0, 1] bcast_S1024x1024_S1024x1024x1_0_1 modIdx (takeIdx (ix2 p q)) = modIdx (ix2 p q) :=
    broadcastInDim_apply _ _ _ _ _ (fun a => by
      match a with
      | ⟨0, _⟩ => rfl
      | ⟨1, _⟩ => rfl)
  have hi : min (broadcastInDim S1024x1024x1 ![0, 1] bcast_S1024x1024_S1024x1024x1_0_1 modIdx (takeIdx (ix2 p q))).toInt.toNat (1024 - 1)
      = q.val - p.val := by
    rw [hb, modIdx_apply p q h, StableHlo.Predicate.toInt_ofNat_small _ (by omega)]
    simp only [Int.toNat_natCast]
    omega
  have hix : (ix1 (⟨min (broadcastInDim S1024x1024x1 ![0, 1] bcast_S1024x1024_S1024x1024x1_0_1 modIdx (takeIdx (ix2 p q))).toInt.toNat (1024 - 1),
      by omega⟩ : Fin 1024) : S1024.Idx) = ix1 (⟨q.val - p.val, hd⟩ : Fin 1024) := by
    congr 1; exact Fin.ext hi
  exact (congrArg (shapeCast S1024 v shapeCasts_S1x1024_S1024) hix).trans (shapeCast_1a_a_apply v _ ⟨q.val - p.val, hd⟩)

/-- The Toeplitz matrix read at (p, q). -/
private theorem toep_apply (v : FVec Ideal S1x1024 .f32) (p q : Fin 1024) :
    Cert.Toeplitz.toep v (ix2 p q)
      = if h : p.val ≤ q.val then v (ix2 (0 : Fin 1) (⟨q.val - p.val, by have := q.isLt; omega⟩ : Fin 1024)) else 0 := rfl

theorem rW_eq (v : FVec Ideal S1x1024 .f32) : rW (F := Ideal) v = Cert.Toeplitz.toep v := by
  funext i
  obtain ⟨p, q, rfl⟩ : ∃ (p : Fin 1024) (q : Fin 1024), i = ix2 p q := ⟨i 0, i 1, eq_ix2 i⟩
  show Scalar.select (upper (ix2 p q))
      (Host.gather gather_S1024_S1024x1024x1_S1024x1024_n_0_n_n_0_2_1 (shapeCast S1024 v shapeCasts_S1x1024_S1024)
        (broadcastInDim S1024x1024x1 ![0, 1] bcast_S1024x1024_S1024x1024x1_0_1 modIdx) (ix2 p q))
      (broadcastInDim S1024x1024 ![] bcast_S_S1024x1024 (constant (F := Ideal) S_ .f32 0x00000000#32) (ix2 p q)) = _
  rw [toep_apply]
  by_cases h : p.val ≤ q.val
  · rw [dif_pos h, (upper_apply p q).mpr h, select_one]
    exact gather_apply v p q h
  · rw [dif_neg h, eq_zero_of_ne_one (fun hu => h ((upper_apply p q).mp hu)), select_zero]
    exact Ideal.ofBits_zero_f32

end Cert.ReferenceIdeal.Hand

end
-- ==== Proof.RefRows.lean ====
/-
  The reference program's product of the rows with the matrix, plus the bias repeated along the rows, is the
  function `affine` of the three arrays: entry (r, j) is `Σ k, X[r, k] · W[k, j] + b[j]`.
-/
import proofs.«409858_j9826885174094_3_alg».proof.ReferenceIdeal
import proofs.«409858_j9826885174094_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Hand

open Idealize.ShloMosaic Idealize.ShloMosaic.ValueIdx Cert.ReferenceIdeal

variable [Facts]
open Facts₀ Facts

/-- The contraction of the reference's product has one axis. -/
theorem rows_contr_rank : dot_S32768x1024_S1024x1024_S32768x1024_1_0_0_1_n_n.contr.rank = 1 := rfl

/-- That axis has the 1024 positions of the left operand's second axis. -/
theorem rows_contr_size :
    dot_S32768x1024_S1024x1024_S32768x1024_1_0_0_1_n_n.contr.size ⟨0, by rw [rows_contr_rank]; exact Nat.one_pos⟩ = 1024 := rfl

/-- The left operand's row is the result's row. -/
theorem rows_lhs_axis0 (j : S32768x1024.Idx) (k : dot_S32768x1024_S1024x1024_S32768x1024_1_0_0_1_n_n.contr.Idx) :
    ((dot_S32768x1024_S1024x1024_S32768x1024_1_0_0_1_n_n.lhsIdx j k) 0 : ℕ) = (j 0).val := by
  simp [DotDims.lhsIdx, dot_S32768x1024_S1024x1024_S32768x1024_1_0_0_1_n_n]; rfl

/-- The left operand's column is the contraction position. -/
theorem rows_lhs_axis1 (j : S32768x1024.Idx) (k : dot_S32768x1024_S1024x1024_S32768x1024_1_0_0_1_n_n.contr.Idx) :
    ((dot_S32768x1024_S1024x1024_S32768x1024_1_0_0_1_n_n.lhsIdx j k) 1 : ℕ)
      = (k ⟨0, by rw [rows_contr_rank]; exact Nat.one_pos⟩).val :=
  DotDims.lhsIdx_val_of_single _ (cl := 1) rfl j k

/-- The right operand's row is the contraction position. -/
theorem rows_rhs_axis0 (j : S32768x1024.Idx) (k : dot_S32768x1024_S1024x1024_S32768x1024_1_0_0_1_n_n.contr.Idx) :
    ((dot_S32768x1024_S1024x1024_S32768x1024_1_0_0_1_n_n.rhsIdx j k) 0 : ℕ)
      = (k ⟨0, by rw [rows_contr_rank]; exact Nat.one_pos⟩).val :=
  DotDims.rhsIdx_val_of_single _ (cr := 0) rfl j k

/-- The right operand's column is the result's column. -/
theorem rows_rhs_axis1 (j : S32768x1024.Idx) (k : dot_S32768x1024_S1024x1024_S32768x1024_1_0_0_1_n_n.contr.Idx) :
    ((dot_S32768x1024_S1024x1024_S32768x1024_1_0_0_1_n_n.rhsIdx j k) 1 : ℕ) = (j 1).val := by
  simp [DotDims.rhsIdx, dot_S32768x1024_S1024x1024_S32768x1024_1_0_0_1_n_n]; rfl

/-- The bias laid out as one row and that row repeated along the 32768 rows reads, at (r, c), the bias at c. -/
theorem rows_bias_apply (b : FVec Ideal S1024 .f32) (r : Fin 32768) (c : Fin 1024) :
    broadcastInDim S32768x1024 ![0, 1] bcast_S1x1024_S32768x1024_0_1
        (broadcastInDim S1x1024 ![1] bcast_S1024_S1x1024_1 b) (ix2 r c) = b (ix1 c) := by
  refine (broadcastInDim_apply _ _ _ (ix2 r c) (ix2 (0 : Fin 1) c) fun a => ?_).trans
    (broadcastInDim_apply _ _ b (ix2 (0 : Fin 1) c) (ix1 c) fun a => ?_)
  · match a with
    | ⟨0, _⟩ => rfl
    | ⟨1, _⟩ => rfl
  · match a with
    | ⟨0, _⟩ => rfl

theorem rows_apply (X : FVec Ideal S32768x1024 .f32) (W : FVec Ideal S1024x1024 .f32) (b : FVec Ideal S1024 .f32) :
    addf (Host.dotGeneral dot_S32768x1024_S1024x1024_S32768x1024_1_0_0_1_n_n none X W)
        (broadcastInDim S32768x1024 ![0, 1] bcast_S1x1024_S32768x1024_0_1 (broadcastInDim S1x1024 ![1] bcast_S1024_S1x1024_1 b))
      = Cert.Toeplitz.affine X W b := by
  funext j
  obtain ⟨r, c, rfl⟩ : ∃ (r : Fin 32768) (c : Fin 1024), j = ix2 r c := ⟨j 0, j 1, eq_ix2 j⟩
  -- the operand indices at result entry (r, c) and contraction position k are (r, k) and (k, c)
  have hL : ∀ k : Fin 1024, dot_S32768x1024_S1024x1024_S32768x1024_1_0_0_1_n_n.lhsIdx (ix2 r c)
      ((contrEquiv1 dot_S32768x1024_S1024x1024_S32768x1024_1_0_0_1_n_n 1024 rows_contr_rank rows_contr_size).symm k) = ix2 r k := fun k =>
    Shape.idx_ext₂ (rows_lhs_axis0 _ _)
      ((rows_lhs_axis1 _ _).trans (contrEquiv1_symm_val dot_S32768x1024_S1024x1024_S32768x1024_1_0_0_1_n_n 1024 rows_contr_rank rows_contr_size k))
  have hR : ∀ k : Fin 1024, dot_S32768x1024_S1024x1024_S32768x1024_1_0_0_1_n_n.rhsIdx (ix2 r c)
      ((contrEquiv1 dot_S32768x1024_S1024x1024_S32768x1024_1_0_0_1_n_n 1024 rows_contr_rank rows_contr_size).symm k) = ix2 k c := fun k =>
    Shape.idx_ext₂
      ((rows_rhs_axis0 _ _).trans (contrEquiv1_symm_val dot_S32768x1024_S1024x1024_S32768x1024_1_0_0_1_n_n 1024 rows_contr_rank rows_contr_size k))
      (rows_rhs_axis1 _ _)
  rw [addf_apply, rows_bias_apply]
  simp only [Host.dotGeneral]
  rw [Ideal.dotGeneral_apply,
    ← Equiv.sum_comp (contrEquiv1 dot_S32768x1024_S1024x1024_S32768x1024_1_0_0_1_n_n 1024 rows_contr_rank rows_contr_size).symm]
  show _ = (∑ k : Fin 1024, X (ix2 r k) * W (ix2 k c)) + b (ix1 c)
  refine congrArg (· + b (ix1 c)) (Finset.sum_congr rfl fun k _ => ?_)
  rw [hL k, hR k]

end Cert.ReferenceIdeal.Hand

end
-- ==== Proof.RefRun.lean ====
/-
  The reference program's run, read back.  Its entry function is a straight line of 51 host operations once the
  three functions it calls (the remainder, and the two selections) are written out at their calls over the calls'
  own buffers; run in order from any memory they terminate with the result buffer at the operations' composed
  term of the three arguments — `refTerm` — and the arguments as they were.
-/
import proofs.«409858_j9826885174094_3_alg».proof.Proof.Gen.ReferenceIdeal
import proofs.«409858_j9826885174094_3_alg».proof.Proof.RefW
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations in order: twelve of the entry function, the remainder's twenty-one (its own call of the scalar
    selection being one of them), nine more of the entry function down to the read of the row, the zero and the
    masking selection's two, and the last six: the rows, the product, the bias repeated, the sum, the fold back. -/
abbrev ops : List (HloOp τ sig (Elt F)) :=
  [ reshape main_arg1 main_v0 rfl shapeCasts_S1x1024_S1024,
    nullary main_v1 (iotaInDim S1024 32 0),
    unary main_v1 main_v2 (broadcastInDim S1024x1 ![0] bcast_S1024_S1024x1_0 : (⟨S1024, .i32⟩ : BufTy).Contents (Elt F) → (⟨S1024x1, .i32⟩ : BufTy).Contents (Elt F)),
    nullary main_v3 (iotaInDim S1024 32 0),
    unary main_v3 main_v4 (broadcastInDim S1x1024 ![1] bcast_S1024_S1x1024_1 : (⟨S1024, .i32⟩ : BufTy).Contents (Elt F) → (⟨S1x1024, .i32⟩ : BufTy).Contents (Elt F)),
    unary main_v4 main_v5 (broadcastInDim S1024x1024 ![0, 1] bcast_S1x1024_S1024x1024_0_1 : (⟨S1x1024, .i32⟩ : BufTy).Contents (Elt F) → (⟨S1024x1024, .i32⟩ : BufTy).Contents (Elt F)),
    unary main_v2 main_v6 (broadcastInDim S1024x1024 ![0, 1] bcast_S1024x1_S1024x1024_0_1 : (⟨S1024x1, .i32⟩ : BufTy).Contents (Elt F) → (⟨S1024x1024, .i32⟩ : BufTy).Contents (Elt F)),
    binary main_v5 main_v6 main_v7 (cmpi .sge : (⟨S1024x1024, .i32⟩ : BufTy).Contents (Elt F) → (⟨S1024x1024, .i32⟩ : BufTy).Contents (Elt F) → (⟨S1024x1024, .i1⟩ : BufTy).Contents (Elt F)),
    unary main_v4 main_v8 (broadcastInDim S1024x1024 ![0, 1] bcast_S1x1024_S1024x1024_0_1 : (⟨S1x1024, .i32⟩ : BufTy).Contents (Elt F) → (⟨S1024x1024, .i32⟩ : BufTy).Contents (Elt F)),
    unary main_v2 main_v9 (broadcastInDim S1024x1024 ![0, 1] bcast_S1024x1_S1024x1024_0_1 : (⟨S1024x1, .i32⟩ : BufTy).Contents (Elt F) → (⟨S1024x1024, .i32⟩ : BufTy).Contents (Elt F)),
    binary main_v8 main_v9 main_v10 (subi : (⟨S1024x1024, .i32⟩ : BufTy).Contents (Elt F) → (⟨S1024x1024, .i32⟩ : BufTy).Contents (Elt F) → (⟨S1024x1024, .i32⟩ : BufTy).Contents (Elt F)),
    nullary main_c (constantI S_ 32 1024#32),
    TRef.unary (.of main_c : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S1024x1024 ![] bcast_S_S1024x1024),
    TRef.binary (.of main_v10 : TRef sig ⟨S1024x1024, .i32⟩) main_call0.v3 main_call0.v4 Host.remsi,
    TRef.nullary main_call0.c_1 (constantI S_ 32 0#32),
    TRef.unary main_call0.c_1 main_call0.v5 (broadcastInDim S1024x1024 ![] bcast_S_S1024x1024),
    TRef.binary main_call0.v4 main_call0.v5 main_call0.v6 (cmpi .ne),
    TRef.nullary main_call0.c_2 (constantI S_ 32 0#32),
    TRef.unary main_call0.c_2 main_call0.v7 (broadcastInDim S1024x1024 ![] bcast_S_S1024x1024),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S1024x1024 ![] bcast_S_S1024x1024),
    TRef.binary main_call0.v8 main_call0.v10 main_call0.v11 (cmpi .ne),
    TRef.binary main_call0.v11 main_call0.v6 main_call0.v12 andi,
    TRef.unary main_call0.call0.v0 main_call0.v13 (broadcastInDim S1024x1024 ![] bcast_S_S1024x1024),
    TRef.binary main_call0.v4 main_call0.v13 main_call0.v14 addi,
    TRef.ternary main_call0.v12 main_call0.v14 main_call0.v4 main_call0.v15 select,
    nullary main_c_0 (constantI S_ 32 0#32),
    unary main_c_0 main_v12 (broadcastInDim S1024x1024 ![] bcast_S_S1024x1024 : (⟨S_, .i32⟩ : BufTy).Contents (Elt F) → (⟨S1024x1024, .i32⟩ : BufTy).Contents (Elt F)),
    binary main_v11 main_v12 main_v13 (cmpi .slt : (⟨S1024x1024, .i32⟩ : BufTy).Contents (Elt F) → (⟨S1024x1024, .i32⟩ : BufTy).Contents (Elt F) → (⟨S1024x1024, .i1⟩ : BufTy).Contents (Elt F)),
    nullary main_c_1 (constantI S_ 32 1024#32),
    unary main_c_1 main_v14 (broadcastInDim S1024x1024 ![] bcast_S_S1024x1024 : (⟨S_, .i32⟩ : BufTy).Contents (Elt F) → (⟨S1024x1024, .i32⟩ : BufTy).Contents (Elt F)),
    binary main_v11 main_v14 main_v15 (addi : (⟨S1024x1024, .i32⟩ : BufTy).Contents (Elt F) → (⟨S1024x1024, .i32⟩ : BufTy).Contents (Elt F) → (⟨S1024x1024, .i32⟩ : BufTy).Contents (Elt F)),
    ternary main_v13 main_v15 main_v11 main_v16 (select : (⟨S1024x1024, .i1⟩ : BufTy).Contents (Elt F) → (⟨S1024x1024, .i32⟩ : BufTy).Contents (Elt F) → (⟨S1024x1024, .i32⟩ : BufTy).Contents (Elt F) → (⟨S1024x1024, .i32⟩ : BufTy).Contents (Elt F)),
    unary main_v16 main_v17 (broadcastInDim S1024x1024x1 ![0, 1] bcast_S1024x1024_S1024x1024x1_0_1 : (⟨S1024x1024, .i32⟩ : BufTy).Contents (Elt F) → (⟨S1024x1024x1, .i32⟩ : BufTy).Contents (Elt F)),
    binary main_v0 main_v17 main_v18 ((fun x i => Host.gather gather_S1024_S1024x1024x1_S1024x1024_n_0_n_n_0_2_1 x i) : (⟨S1024, .f32⟩ : BufTy).Contents (Elt F) → (⟨S1024x1024x1, .i32⟩ : BufTy).Contents (Elt F) → (⟨S1024x1024, .f32⟩ : BufTy).Contents (Elt F)),
    nullary main_cst (constant S_ .f32 0x00000000#32),
    TRef.unary (.of main_cst : TRef sig ⟨S_, .f32⟩) main_call1.v0 (broadcastInDim S1024x1024 ![] bcast_S_S1024x1024),
    TRef.ternary (.of main_v7 : TRef sig ⟨S1024x1024, .i1⟩) (.of main_v18 : TRef sig ⟨S1024x1024, .f32⟩) main_call1.v0 main_call1.v1 select,
    reshape main_arg0 main_v20 rfl shapeCasts_S32x1024x1024_S32768x1024,
    binary main_v20 main_v19 main_v21 ((fun l r => Host.dotGeneral dot_S32768x1024_S1024x1024_S32768x1024_1_0_0_1_n_n none l r) : (⟨S32768x1024, .f32⟩ : BufTy).Contents (Elt F) → (⟨S1024x1024, .f32⟩ : BufTy).Contents (Elt F) → (⟨S32768x1024, .f32⟩ : BufTy).Contents (Elt F)),
    unary main_arg2 main_v22 (broadcastInDim S1x1024 ![1] bcast_S1024_S1x1024_1 : (⟨S1024, .f32⟩ : BufTy).Contents (Elt F) → (⟨S1x1024, .f32⟩ : BufTy).Contents (Elt F)),
    unary main_v22 main_v23 (broadcastInDim S32768x1024 ![0, 1] bcast_S1x1024_S32768x1024_0_1 : (⟨S1x1024, .f32⟩ : BufTy).Contents (Elt F) → (⟨S32768x1024, .f32⟩ : BufTy).Contents (Elt F)),
    binary main_v21 main_v23 main_v24 (addf : (⟨S32768x1024, .f32⟩ : BufTy).Contents (Elt F) → (⟨S32768x1024, .f32⟩ : BufTy).Contents (Elt F) → (⟨S32768x1024, .f32⟩ : BufTy).Contents (Elt F)),
    reshape main_v24 main_v25 rfl shapeCasts_S32768x1024_S32x1024x1024 ]

set_option maxRecDepth 2048 in
/-- The entry function is that straight line: the called functions unfolded at their calls, sequencing reassociated. -/
theorem main_eq (c : Dev nD) : main (F := F) c = seq ops := by
  simp only [main, fn_remainder.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨reshape_bufs_sub .., nullary_bufs_sub .., unary_bufs_sub .., nullary_bufs_sub .., unary_bufs_sub .., unary_bufs_sub .., unary_bufs_sub .., binary_bufs_sub .., unary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., ternary_bufs_sub .., reshape_bufs_sub .., binary_bufs_sub .., unary_bufs_sub .., unary_bufs_sub .., binary_bufs_sub .., reshape_bufs_sub ..⟩

/-- Every buffer after the run is the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.Hand

end
-- ==== Proof.RefResult.lean ====
/-
  The reference program's run with its result named: every execution terminates with the result buffer at
  `refTerm` of the three arguments, and the arguments as they were.
-/
import proofs.«409858_j9826885174094_3_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.remsi in
set_option maxRecDepth 8192 in
/-- The fold of the operations at the result buffer is `refTerm` of the argument buffers' contents: each operation
    writes its own buffer from the buffers written before it. -/
theorem result_eq (V : Valuation τ sig (Elt F)) :
    after ops V (Proc.devRef .tc main_v25)
      = refTerm (V (Proc.devRef .tc main_arg0)) (V (Proc.devRef .tc main_arg1)) (V (Proc.devRef .tc main_arg2)) := by
  after_results_simp
  unfold refTerm rW modIdx frem trem divisor upper colIdx rowIdx
  rfl

theorem arg0_eq (V : Valuation τ sig (Elt F)) : after ops V (Proc.devRef .tc main_arg0) = V (Proc.devRef .tc main_arg0) := by
  after_results_simp
theorem arg1_eq (V : Valuation τ sig (Elt F)) : after ops V (Proc.devRef .tc main_arg1) = V (Proc.devRef .tc main_arg1) := by
  after_results_simp
theorem arg2_eq (V : Valuation τ sig (Elt F)) : after ops V (Proc.devRef .tc main_arg2) = V (Proc.devRef .tc main_arg2) := by
  after_results_simp

/-- The run, read at the result and at the arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
        = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v25).trans (result_eq _), (h c main_arg0).trans (arg0_eq _),
      (h c main_arg1).trans (arg1_eq _), (h c main_arg2).trans (arg2_eq _)⟩)
    (run_all m ρ)

end Cert.ReferenceIdeal.Hand

end
-- ==== Proof.lean ====
/-
  The certificate of a causal Toeplitz linear layer: `x` [32, 1024, 1024] times the upper-triangular Toeplitz
  matrix of a weight row [1, 1024], plus a bias [1024].

  Both programs compute, over the extended reals, the one function `Cert.Toeplitz.G` (Proof/Spec.lean): the rows of
  `x` times the matrix whose entry (i, j) is `w[j - i]` for i ≤ j and zero otherwise, plus the bias on every row.
  They differ in how the matrix is made and in how the product is tiled:
  * the kernel program lays the weight row end to end 1025 times, re-cuts the run into rows of 1025 so that row r
    starts r places further along the row (entry (r, c) is `w[(r + c) mod 1024]`), reverses the order of rows
    1 … 1023, and masks the entries below the diagonal (Proof/KernelWEq.lean); its region multiplies 32 blocks of
    1024 rows by the whole matrix, each block's entry the plain sum over the 1024 contraction positions plus the
    bias entry (Proof/KernelPay.lean), and the 32 blocks tile the output (Proof/KernelValue.lean);
  * the reference program reads the row at `(j - i) mod 1024`, computed in 32-bit words, and masks the same entries
    (Proof/RefWEq.lean), then takes one product of all 32768 rows (Proof/RefRows.lean).
  Equal matrices and equal sums give equal results: no law of the extended reals beyond rewriting equal terms is
  used, and the precondition (finite inputs) is not needed.  The change to bf16 of the rows and of the matrix in the
  kernel program is the identity on the extended reals.
-/
import proofs.«409858_j9826885174094_3_alg».proof.Defs
import proofs.«409858_j9826885174094_3_alg».proof.Proof.Gen.Kernel
import proofs.«409858_j9826885174094_3_alg».proof.Proof.Gen.Kernel.Skeleton
import proofs.«409858_j9826885174094_3_alg».proof.Proof.Gen.Kernel.Launch
import proofs.«409858_j9826885174094_3_alg».proof.Proof.Gen.Kernel.Points
import proofs.«409858_j9826885174094_3_alg».proof.Proof.Gen.Kernel.Frame
import proofs.«409858_j9826885174094_3_alg».proof.Proof.Gen.KernelIdeal
import proofs.«409858_j9826885174094_3_alg».proof.Proof.Gen.KernelIdeal.Skeleton
import proofs.«409858_j9826885174094_3_alg».proof.Proof.Gen.KernelIdeal.Launch
import proofs.«409858_j9826885174094_3_alg».proof.Proof.Gen.KernelIdeal.Points
import proofs.«409858_j9826885174094_3_alg».proof.Proof.Gen.KernelIdeal.Frame
import proofs.«409858_j9826885174094_3_alg».proof.Proof.Gen.ReferenceIdeal
import proofs.«409858_j9826885174094_3_alg».proof.Proof.Gen.Pre_finite_inputs
import proofs.«409858_j9826885174094_3_alg».proof.Proof.Spec
import proofs.«409858_j9826885174094_3_alg».proof.Proof.KernelPay
import proofs.«409858_j9826885174094_3_alg».proof.Proof.KernelWEq
import proofs.«409858_j9826885174094_3_alg».proof.Proof.KernelRun
import proofs.«409858_j9826885174094_3_alg».proof.Proof.RefWEq
import proofs.«409858_j9826885174094_3_alg».proof.Proof.RefRows
import proofs.«409858_j9826885174094_3_alg».proof.Proof.RefResult
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- So does the kernel program over the extended reals. -/
theorem frame_ki : Cert.frame_KernelIdeal := fun m ρ _ => Cert.KernelIdeal.Gen.frame m ρ

/-- So does the reference program: its run read back, the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- No operation was rewritten when the kernel program was read over the extended reals. -/
theorem preserves : Cert.preserves_Kernel_KernelIdeal := trivial

/-- The reference program's composed term is `G`: its matrix is the Toeplitz matrix, its product and bias the
    function `affine`, and the merging and folding of the leading axes are `G`'s own. -/
theorem ref_result (x : FVec Ideal Cert.ReferenceIdeal.S32x1024x1024 .f32) (v : FVec Ideal Cert.ReferenceIdeal.S1x1024 .f32)
    (b : FVec Ideal Cert.ReferenceIdeal.S1024 .f32) :
    Cert.ReferenceIdeal.Hand.refTerm (F := Ideal) x v b = Cert.Toeplitz.G x v b := by
  unfold Cert.ReferenceIdeal.Hand.refTerm Cert.Toeplitz.G
  rw [Cert.ReferenceIdeal.Hand.rW_eq, Cert.ReferenceIdeal.Hand.rows_apply]

/-- From memories that agree on the three arguments both programs end with the result at `G` of the arguments. -/
theorem algebraic : Cert.algebraic_KernelIdeal_ReferenceIdeal := by
  intro m ρ m' ρ' _ hagree
  refine ⟨fun c => Cert.Toeplitz.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.Hand.run_rows m ρ Cert.KernelIdeal.Hand.pay_apply)
    rw [Cert.KernelIdeal.Hand.rowsOut_eq m Cert.KernelIdeal.Hand.kW_eq c]
    rfl
  · refine (θ_run Cert.ReferenceIdeal.defs _ _).mono (fun _ h c => ⟨(h c).1.trans ?_, (h c).2⟩)
      (Cert.ReferenceIdeal.Hand.run (F := Ideal) m' ρ')
    rw [(hagree c).1, (hagree c).2.1, (hagree c).2.2]
    exact ref_result _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
